-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S2x262144 : Shape := ⟨2, ![2, 262144]⟩
abbrev S128x64 : Shape := ⟨2, ![128, 64]⟩
abbrev S64 : Shape := ⟨1, ![64]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S128x8192 .f32) (main_arg1 : IVec S2x262144 32) (main_arg2 : FVec F S128x64 .f32) (main_arg3 : FVec F S64 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S128x8192 : Shape := ⟨2, ![128, 8192]⟩
abbrev S2x262144 : Shape := ⟨2, ![2, 262144]⟩
abbrev S128x64 : Shape := ⟨2, ![128, 64]⟩
abbrev S64 : Shape := ⟨1, ![64]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x128 : Shape := ⟨2, ![8192, 128]⟩
abbrev S8192x64 : Shape := ⟨2, ![8192, 64]⟩
abbrev S270336x64 : Shape := ⟨2, ![270336, 64]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩

abbrev nBuf : Space → Nat
  | .hbm => 67
  | .vmem => 6
  | .smem => 0
  | _ => 0

abbrev bufTy : (tb : Table) → Fin (tcTables nBuf tb) → BufTy
  | .hbm, ⟨0, _⟩ => ⟨S128x8192, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S8192, .i32⟩
  | .hbm, ⟨5, _⟩ => ⟨S1x262144, .i32⟩
  | .hbm, ⟨6, _⟩ => ⟨S262144, .i32⟩
  | .hbm, ⟨7, _⟩ => ⟨S270336, .i32⟩
  | .hbm, ⟨8, _⟩ => ⟨S1x262144, .i32⟩
  | .hbm, ⟨9, _⟩ => ⟨S262144, .i32⟩
  | .hbm, ⟨10, _⟩ => ⟨S270336, .i32⟩
  | .hbm, ⟨11, _⟩ => ⟨S_, .f32⟩
  | .hbm, ⟨12, _⟩ => ⟨S270336, .f32⟩
  | .hbm, ⟨13, _⟩ => ⟨S_, .f32⟩
  | .hbm, ⟨14, _⟩ => ⟨S8192, .f32⟩
  | .hbm, ⟨15, _⟩ => ⟨S270336x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .i32⟩
  | .hbm, ⟨26, _⟩ => ⟨S270336, .i32⟩
  | .hbm, ⟨27, _⟩ => ⟨S270336, .i1⟩
  | .hbm, ⟨28, _⟩ => ⟨S_, .i32⟩
  | .hbm, ⟨29, _⟩ => ⟨S270336, .i32⟩
  | .hbm, ⟨30, _⟩ => ⟨S270336, .i32⟩
  | .hbm, ⟨31, _⟩ => ⟨S270336, .i32⟩
  | .hbm, ⟨32, _⟩ => ⟨S270336x1, .i32⟩
  | .hbm, ⟨33, _⟩ => ⟨S270336, .f32⟩
  | .hbm, ⟨34, _⟩ => ⟨S_, .i32⟩
  | .hbm, ⟨35, _⟩ => ⟨S270336, .i32⟩
  | .hbm, ⟨36, _⟩ => ⟨S270336, .i1⟩
  | .hbm, ⟨37, _⟩ => ⟨S_, .i32⟩
  | .hbm, ⟨38, _⟩ => ⟨S270336, .i32⟩
  | .hbm, ⟨39, _⟩ => ⟨S270336, .i32⟩
  | .hbm, ⟨40, _⟩ => ⟨S270336, .i32⟩
  | .hbm, ⟨41, _⟩ => ⟨S270336x1, .i32⟩
  | .hbm, ⟨42, _⟩ => ⟨S270336, .f32⟩
  | .hbm, ⟨43, _⟩ => ⟨S270336, .f32⟩
  | .hbm, ⟨44, _⟩ => ⟨S8192x128, .f32⟩
  | .hbm, ⟨45, _⟩ => ⟨S8192x64, .f32⟩
  | .hbm, ⟨46, _⟩ => ⟨S_, .i32⟩
  | .hbm, ⟨47, _⟩ => ⟨S270336, .i32⟩
  | .hbm, ⟨48, _⟩ => ⟨S270336, .i1⟩
  | .hbm, ⟨49, _⟩ => ⟨S_, .i32⟩
  | .hbm, ⟨50, _⟩ => ⟨S270336, .i32⟩
  | .hbm, ⟨51, _⟩ => ⟨S270336, .i32⟩
  | .hbm, ⟨52, _⟩ => ⟨S270336, .i32⟩
  | .hbm, ⟨53, _⟩ => ⟨S270336x1, .i32⟩
  | .hbm, ⟨54, _⟩ => ⟨S270336x64, .f32⟩
  | .hbm, ⟨55, _⟩ => ⟨S270336x1, .f32⟩
  | .hbm, ⟨56, _⟩ => ⟨S270336x64, .f32⟩
  | .hbm, ⟨57, _⟩ => ⟨S270336x64, .f32⟩
  | .hbm, ⟨58, _⟩ => ⟨S_, .f32⟩
  | .hbm, ⟨59, _⟩ => ⟨S8192x64, .f32⟩
  | .hbm, ⟨60, _⟩ => ⟨S270336x1, .i32⟩
  | .hbm, ⟨61, _⟩ => ⟨S8192x64, .f32⟩
  | .hbm, ⟨62, _⟩ => ⟨S1x64, .f32⟩
  | .hbm, ⟨63, _⟩ => ⟨S8192x64, .f32⟩
  | .hbm, ⟨64, _⟩ => ⟨S8192x64, .f32⟩
  | .hbm, ⟨65, _⟩ => ⟨S8192x64, .bf16⟩
  | .hbm, ⟨66, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1024, .f32⟩
  | .local _ .vmem, ⟨5, _⟩ => ⟨S1024x1024, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  transposes_S128x8192_S8192x128_1_0 : S128x8192.Transposes [1, 0] S8192x128
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x64_S8192x64_1_0_0_1_n_n_wf : DotDims.WF S8192x128 S128x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v48) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192 : Shape := ⟨2, ![128, 8192]⟩
abbrev S2x262144 : Shape := ⟨2, ![2, 262144]⟩
abbrev S128x64 : Shape := ⟨2, ![128, 64]⟩
abbrev S64 : Shape := ⟨1, ![64]⟩
abbrev S8192x128 : Shape := ⟨2, ![8192, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x64 : Shape := ⟨2, ![8192, 64]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S8192x128, .f32⟩
  | .hbm, ⟨5, _⟩ => ⟨S8192, .i32⟩
  | .hbm, ⟨6, _⟩ => ⟨S1x262144, .i32⟩
  | .hbm, ⟨7, _⟩ => ⟨S262144, .i32⟩
  | .hbm, ⟨8, _⟩ => ⟨S270336, .i32⟩
  | .hbm, ⟨9, _⟩ => ⟨S1x262144, .i32⟩
  | .hbm, ⟨10, _⟩ => ⟨S262144, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .i32⟩
  | .hbm, ⟨27, _⟩ => ⟨S270336, .i32⟩
  | .hbm, ⟨28, _⟩ => ⟨S270336, .i1⟩
  | .hbm, ⟨29, _⟩ => ⟨S_, .i32⟩
  | .hbm, ⟨30, _⟩ => ⟨S270336, .i32⟩
  | .hbm, ⟨31, _⟩ => ⟨S270336, .i32⟩
  | .hbm, ⟨32, _⟩ => ⟨S270336, .i32⟩
  | .hbm, ⟨33, _⟩ => ⟨S270336x1, .i32⟩
  | .hbm, ⟨34, _⟩ => ⟨S270336, .f32⟩
  | .hbm, ⟨35, _⟩ => ⟨S_, .i32⟩
  | .hbm, ⟨36, _⟩ => ⟨S270336, .i32⟩
  | .hbm, ⟨37, _⟩ => ⟨S270336, .i1⟩
  | .hbm, ⟨38, _⟩ => ⟨S_, .i32⟩
  | .hbm, ⟨39, _⟩ => ⟨S270336, .i32⟩
  | .hbm, ⟨40, _⟩ => ⟨S270336, .i32⟩
  | .hbm, ⟨41, _⟩ => ⟨S270336, .i32⟩
  | .hbm, ⟨42, _⟩ => ⟨S270336x1, .i32⟩
  | .hbm, ⟨43, _⟩ => ⟨S270336, .f32⟩
  | .hbm, ⟨44, _⟩ => ⟨S270336, .f32⟩
  | .hbm, ⟨45, _⟩ => ⟨S8192x64, .f32⟩
  | .hbm, ⟨46, _⟩ => ⟨S_, .i32⟩
  | .hbm, ⟨47, _⟩ => ⟨S270336, .i32⟩
  | .hbm, ⟨48, _⟩ => ⟨S270336, .i1⟩
  | .hbm, ⟨49, _⟩ => ⟨S_, .i32⟩
  | .hbm, ⟨50, _⟩ => ⟨S270336, .i32⟩
  | .hbm, ⟨51, _⟩ => ⟨S270336, .i32⟩
  | .hbm, ⟨52, _⟩ => ⟨S270336, .i32⟩
  | .hbm, ⟨53, _⟩ => ⟨S270336x1, .i32⟩
  | .hbm, ⟨54, _⟩ => ⟨S270336x64, .f32⟩
  | .hbm, ⟨55, _⟩ => ⟨S270336x1, .f32⟩
  | .hbm, ⟨56, _⟩ => ⟨S270336x64, .f32⟩
  | .hbm, ⟨57, _⟩ => ⟨S270336x64, .f32⟩
  | .hbm, ⟨58, _⟩ => ⟨S_, .f32⟩
  | .hbm, ⟨59, _⟩ => ⟨S8192x64, .f32⟩
  | .hbm, ⟨60, _⟩ => ⟨S270336x1, .i32⟩
  | .hbm, ⟨61, _⟩ => ⟨S8192x64, .f32⟩
  | .hbm, ⟨62, _⟩ => ⟨S1x64, .f32⟩
  | .hbm, ⟨63, _⟩ => ⟨S8192x64, .f32⟩
  | .hbm, ⟨64, _⟩ => ⟨S8192x64, .f32⟩
  | .hbm, ⟨65, _⟩ => ⟨S64x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  transposes_S128x8192_S8192x128_1_0 : S128x8192.Transposes [1, 0] S8192x128
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x64_S8192x64_1_0_0_1_n_n_wf : DotDims.WF S8192x128 S128x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x8192_S8192x8192_1_0_0_1_n_n_wf : DotDims.WF S8192x64 S64x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibSharedFrame.lean ====
/-
  The frame run of a program that runs ONE pipelined kernel region whose INPUT windows may read the SAME array.

  When two input windows of a pipelined call are blocks of one array, that array cannot be handed to both windows
  at the full share. It is handed to each at a PART of the share instead: the proof data's `q w` names the part
  input window `w` holds, an output window still holds its own array whole. The certificate then owes one
  entailment, `hsplit`: the distinct buffers behind the windows' arrays, each whole at its contents `V` when the
  region is entered, yield the windows' arrays at those parts.

  With that entailment the run is the same as for distinct arrays: every weakly fair execution of @main terminates,
  each window's array ends at what the write-backs made of it (`Dat.arrAt … N`; an input's array is never written),
  and every other unscoped buffer ends as the region found it. The kernel keeps nothing between grid points beyond
  its staging buffers, and uses neither a semaphore of its own nor the generator register: its invariant is the
  scoped buffers that are no staging buffer, each whole at some contents.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Rounds

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN when input windows may share an array. `hinj`: the staging cells are pairwise distinct; `hw`: the
    windows' layout, the arrays' distinctness apart; `hne`, `harr`, `hstage`: no block is empty and the arrays and
    staging memrefs are whole buffers; `hbody`: the body obligation at every point; `howed`: the core owes nothing;
    `hmain`: @main up to the region, the buffers at `V` there; `hsplit`: the buffers behind the arrays, whole at `V`,
    are the windows' arrays at the shares the proof data name; `hΦ`: the invariant is the scoped rest. -/
theorem θ_run_frame_shared
    (hinj : Function.Injective (cellOf (nD := nD) (τ := τ) cfgs)) (hw : WinFacts₀ (cfg).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.KIFrame.lean ====
/-
  The frame of the program: it runs to the end, faults nowhere, and leaves its four argument arrays as they were.

  @main computes the node embedding `z` by host operations (three stretches of them: the operations before the
  `where`, the `where` itself, the operations after it), rounds it to bf16, and launches one pipelined kernel over an
  8 × 8 grid. At grid point (i, j) the kernel reads row block `i` of `z` through its first window and row block `j`
  of the SAME array through its second, multiplies the first by the transpose of the second, applies the logistic
  function, and stores the 1024 × 1024 tile into its output window, which the pipeline writes back as tile (i, j)
  of the result.

  Because both input windows are blocks of one array, that array is handed to the two windows at the two HALVES of
  the full share (the first window the left half, the second the right half), not to each at the full share; the
  output window holds its own array whole. With the array split so, the launch is the general frame run for windows
  that share an array.

  What is proved here, for any float instance:
    * `V`: the buffers' contents when the region is entered, the fold of the host operations over the launch
      memory; `hmain`: @main up to the region;
    * `tileOut`: what the output window's staging buffer holds after the body, as a function of the two input
      blocks; `sound_kernel`: the body's triple;
    * `dats`: the pipeline's proof data; `body_obligation`; `arrays_split`: the shared array split between the two
      input windows;
    * `run_main`: every weakly fair execution terminates, every window's array at what the write-backs made of it
      and every other buffer as the region found it; `frame`: the argument arrays unchanged.
-/
import proofs.«400108_j31233002177120_3_alg».proof.Proof.Gen.KernelIdeal.Launch
import proofs.«400108_j31233002177120_3_alg».proof.Proof.Gen.KernelIdeal.Skeleton
import proofs.«400108_j31233002177120_3_alg».proof.Proof.Gen.KernelIdeal.Points
import proofs.«400108_j31233002177120_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the host operations before it, folded over the launch memory. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: three stretches of host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem V_arg (b : Ref sig .tc)
    (hb : (List.flatten [hostOps0 (F := F), hostOps0_1, hostOps0_2]).Forall fun op => Proc.devRef .tc b ∉ op.writes)
    (c : Dev nD) : V m c b = m ((c : Thread nD τ).loc b) :=
  StableHlo.after_of_forall_not_mem (b := Proc.devRef .tc b) _ _ (List.forall_iff_forall_mem.mp hb)

set_option maxHeartbeats 2000000 in
theorem not_written_arg0 :
    (List.flatten [hostOps0 (F := F), hostOps0_1, hostOps0_2]).Forall fun op => Proc.devRef .tc main_arg0 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
set_option maxHeartbeats 2000000 in
theorem not_written_arg1 :
    (List.flatten [hostOps0 (F := F), hostOps0_1, hostOps0_2]).Forall fun op => Proc.devRef .tc main_arg1 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
set_option maxHeartbeats 2000000 in
theorem not_written_arg2 :
    (List.flatten [hostOps0 (F := F), hostOps0_1, hostOps0_2]).Forall fun op => Proc.devRef .tc main_arg2 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)
set_option maxHeartbeats 2000000 in
theorem not_written_arg3 :
    (List.flatten [hostOps0 (F := F), hostOps0_1, hostOps0_2]).Forall fun op => Proc.devRef .tc main_arg3 ∉ op.writes := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem V_main_arg0 (c : Dev nD) : V m c main_arg0 = m ((c : Thread nD τ).loc main_arg0) := V_arg m main_arg0 not_written_arg0 c
theorem V_main_arg1 (c : Dev nD) : V m c main_arg1 = m ((c : Thread nD τ).loc main_arg1) := V_arg m main_arg1 not_written_arg1 c
theorem V_main_arg2 (c : Dev nD) : V m c main_arg2 = m ((c : Thread nD τ).loc main_arg2) := V_arg m main_arg2 not_written_arg2 c
theorem V_main_arg3 (c : Dev nD) : V m c main_arg3 = m ((c : Thread nD τ).loc main_arg3) := V_arg m main_arg3 not_written_arg3 c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current staging buffer holds its block at every point, fetched there or not (between
    fetches its block index does not move), for any proof data whose array is `V`'s and whose body leaves the block
    in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No window stages an argument array, so the frame run's post reads each back as the region found it, which is as
    launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body leaves in the output window's buffer -/

/-- The whole 1024 × 64 input block and the whole 1024 × 1024 output tile, as rectangles. -/
abbrev rIn : Rect S1024x64 := Rect.unit (s := S1024x64) ![0, 0] S1024x64.size inb_S1024x64_S1024x64_0_0
abbrev rOut : Rect S1024x1024 := Rect.unit (s := S1024x1024) ![0, 0] S1024x1024.size inb_S1024x1024_S1024x1024_0_0

/-- The output tile after the body: its one store, of the logistic of the product of the two input blocks. -/
def tileOut (x0 : Vec F S1024x64 .bf16) (x1 : Vec F S1024x64 .bf16) : Vec F S1024x1024 .f32 :=
  View.canon [⟨rOut, k0_pay1 (View.ld x0 rIn) (View.ld x1 rIn)⟩]

/-- The one store covers the tile. -/
theorem tileOut_cover (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the inputs' at contents `x0`, `x1` and the output's at anything, runs to
    the continuation holding the inputs' as they were and the output's at `tileOut x0 x1`. (It also loads the output
    buffer before storing into it; the loaded value is not used.) -/
theorem sound_kernel (c : Dev nD) (E : Set ℕ) (i : grid0.Coords) (arg2 : Memref sig .tc .vmem S1024x64 .bf16) (harg2 : arg2.IsWhole)
    (arg3 : Memref sig .tc .vmem S1024x64 .bf16) (harg3 : arg3.IsWhole) (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__zzt_kernel i arg2 harg2 arg3 harg3 arg4 harg4) K := by
  simp only [cc0__zzt_kernel_eq_skeleton]; unfold cc0__zzt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tileOut_cover _)

/-! ## The pipeline's proof data -/

/-- The proof data on core `c`: the arrays as the region finds them; after the body at point `t` each input's buffer
    at its block and the output's at `tileOut` of the two; the invariant the scoped buffers that are no staging
    buffer; nothing owed; the shared input array held by the first window at the left half of the full share and by
    the second at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = tileOut (iblk m c 0 t) (iblk m c 1 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shared array, split between the two input windows -/

/-- The two distinct buffers behind the three windows' arrays. -/
theorem arrRefs_eq : Finset.univ.image (Pipeline.arrRef spec0) = ([main_v48, main_v49] : List (Ref sig .tc)).toFinset := by decide

/-- The embedding's buffer whole at the full share is the first window's array at the left half and the second's at
    the right half; the result's buffer is the output window's array, whole. -/
theorem arrays_split (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v48, main_v49] arrRefs_eq (by decide), bigSep_W0]
  simp only [bigSepL]
  have s0 : (dats m 0 c).share 0 = fullShare.left := rfl
  have s1 : (dats m 0 c).share 1 = fullShare.right := rfl
  have s2 : (dats m 0 c).share 2 = fullShare := rfl
  rw [s0, s1, s2, (Memref.isWhole_whole main_v48).set_eq_univ, (Memref.isWhole_whole main_v49).set_eq_univ]
  refine (show iprop((((c.tc : Thread nD τ).loc main_v48) ↦{fullShare} V m c main_v48) ∗ (((c.tc : Thread nD τ).loc main_v49) ↦{fullShare} V m c main_v49)) ⊢ _ from ?_)
  iintro ⟨H48, H49⟩
  ihave H := (pointsTo_share (PosShare.mem_left_op_right fullShare)).1 $$ [H48]
  · iexact H48
  icases H with ⟨Hl, Hr⟩
  isplitl [Hl]; · iexact Hl
  isplitl [Hr]; · iexact Hr
  iexact H49

/-! ## The run and the frame -/

set_option backward.isDefEq.respectTransparency.types false in
/-- Every weakly fair execution of @main terminates; every final state has each window's array at what the
    write-backs made of it and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (hmain := hmain m Variants.none) (hsplit := arrays_split m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Frame

end
-- ==== Proof.Spec.lean ====
/-
  The inner-product decoder of a graph autoencoder, as a function on arrays of extended reals.

  For a node embedding `z` (8192 nodes, 64 features) the predicted adjacency has, at row `p` and column `q`,
  the logistic of the inner product of rows `p` and `q` of `z`:

      decode z (p, q) = 1 / (1 + exp (-(∑ k, z (p, k) * z (q, k)))).

  The kernel computes it tile by tile (1024 rows against 1024 rows), the reference all at once; both are this
  function. `tile` is one 1024 × 1024 tile from the two row blocks that meet in it.
-/
import Idealize.ShloMosaic.PureOps.Ideal
import Idealize.ShloMosaic.Lib.ValueIdx

noncomputable section

open scoped BigOperators

namespace Cert.GaeSpec

open Idealize.ShloMosaic Idealize.ShloMosaic.ValueIdx

/-- The whole prediction: entry `(p, q)` is the logistic of `⟨z p, z q⟩`. -/
def decode (z : (⟨2, ![8192, 64]⟩ : Shape).Idx → EReal) : (⟨2, ![8192, 8192]⟩ : Shape).Idx → EReal :=
  fun i => Ideal.logistic (∑ k : Fin 64, z (ix2 (i 0) k) * z (ix2 (i 1) k))

theorem decode_apply (z : (⟨2, ![8192, 64]⟩ : Shape).Idx → EReal) (p q : Fin 8192) :
    decode z (ix2 p q) = Ideal.logistic (∑ k : Fin 64, z (ix2 p k) * z (ix2 q k)) := rfl

/-- One tile of it: entry `(r, s)` of the tile is the logistic of the inner product of row `r` of the first row
    block and row `s` of the second. -/
def tile (a b : (⟨2, ![1024, 64]⟩ : Shape).Idx → EReal) : (⟨2, ![1024, 1024]⟩ : Shape).Idx → EReal :=
  fun j => Ideal.logistic (∑ k : Fin 64, a (ix2 (j 0) k) * b (ix2 (j 1) k))

theorem tile_apply (a b : (⟨2, ![1024, 64]⟩ : Shape).Idx → EReal) (r s : Fin 1024) :
    tile a b (ix2 r s) = Ideal.logistic (∑ k : Fin 64, a (ix2 r k) * b (ix2 s k)) := rfl

end Cert.GaeSpec

end
-- ==== Proof.KIPayload.lean ====
/-
  What the kernel body stores, read at one entry of the tile, at the extended reals.

  The body multiplies the first 1024 × 64 block by the transpose of the second (a matrix product into a zero
  accumulator, contracting the feature axis of both) and applies the logistic function. At entry `(r, s)` the
  product is `∑ k, a (r, k) * b (s, k)`: the contraction's index set has one axis of extent 64, and re-indexing the
  sum by that axis gives the sum over `k : Fin 64`. So the stored value is the tile of the decoder.
-/
import proofs.«400108_j31233002177120_3_alg».proof.Proof.Gen.KernelIdeal.Skeleton
import proofs.«400108_j31233002177120_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- Row coordinate of the left operand's index: the tile's row. -/
theorem lhs_row (j : S1024x1024.Idx) (q : dot_S1024x64_S1024x64_S1024x1024_1_1_0_0_n_n.contr.Idx) :
    (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- Feature coordinate of the left operand's index: the contracted coordinate. -/
theorem lhs_feat (j : S1024x1024.Idx) (q : dot_S1024x64_S1024x64_S1024x1024_1_1_0_0_n_n.contr.Idx) :
    (dot_S1024x64_S1024x64_S1024x1024_1_1_0_0_n_n.lhsIdx j q 1).val = (q ⟨0, by decide⟩).val :=
  dot_S1024x64_S1024x64_S1024x1024_1_1_0_0_n_n.lhsIdx_val_of_single rfl j q
/-- Row coordinate of the right operand's index: the tile's column. -/
theorem rhs_row (j : S1024x1024.Idx) (q : dot_S1024x64_S1024x64_S1024x1024_1_1_0_0_n_n.contr.Idx) :
    (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- Feature coordinate of the right operand's index: the contracted coordinate. -/
theorem rhs_feat (j : S1024x1024.Idx) (q : dot_S1024x64_S1024x64_S1024x1024_1_1_0_0_n_n.contr.Idx) :
    (dot_S1024x64_S1024x64_S1024x1024_1_1_0_0_n_n.rhsIdx j q 1).val = (q ⟨0, by decide⟩).val :=
  dot_S1024x64_S1024x64_S1024x1024_1_1_0_0_n_n.rhsIdx_val_of_single rfl j q

/-- The product of the first block with the transpose of the second, into a zero accumulator, at one entry. -/
theorem prod_apply (a b : FVec Ideal S1024x64 .bf16) (j : S1024x1024.Idx) :
    matmul dot_S1024x64_S1024x64_S1024x1024_1_1_0_0_n_n none a b (constant (F := Ideal) S1024x1024 .f32 0x00000000#32) j
      = ∑ k : Fin 64, a (ix2 (j 0) k) * b (ix2 (j 1) k) := by
  show FloatOps.matmul dot_S1024x64_S1024x64_S1024x1024_1_1_0_0_n_n none a b (constant (F := Ideal) S1024x1024 .f32 0x00000000#32) j = _
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx j ((ValueIdx.contrEquiv1 dot_S1024x64_S1024x64_S1024x1024_1_1_0_0_n_n 64 rfl rfl).symm k) = ix2 (j 0) k := funext fun a => Fin.ext (by
    match a with
    | ⟨0, _⟩ => exact lhs_row _ _
    | ⟨1, _⟩ => exact (lhs_feat _ _).trans hk)
  have er : dot_S1024x64_S1024x64_S1024x1024_1_1_0_0_n_n.rhsIdx j ((ValueIdx.contrEquiv1 dot_S1024x64_S1024x64_S1024x1024_1_1_0_0_n_n 64 rfl rfl).symm k) = ix2 (j 1) k := funext fun a => Fin.ext (by
    match a with
    | ⟨0, _⟩ => exact rhs_row _ _
    | ⟨1, _⟩ => exact (rhs_feat _ _).trans hk)
  rw [el, er]
  rfl

/-- The body's stored value is the decoder's tile of the two loaded blocks. -/
theorem pay_eq_tile (x0 x1 : Vec Ideal S1024x64 .bf16) : k0_pay1 (F := Ideal) x0 x1 = GaeSpec.tile x0 x1 := by
  funext j
  unfold k0_pay1 GaeSpec.tile
  show Ideal.logistic (matmul dot_S1024x64_S1024x64_S1024x1024_1_1_0_0_n_n none (shapeCast S1024x64 x0 shapeCasts_S1024x64_S1024x64) (shapeCast S1024x64 x1 shapeCasts_S1024x64_S1024x64) (constant (F := Ideal) S1024x1024 .f32 0x00000000#32) j) = _
  rw [prod_apply, shapeCast_self, shapeCast_self]

end Cert.KernelIdeal.Val

end
-- ==== Proof.KIValue.lean ====
/-
  The idealized kernel's result array: the decoder of the embedding the region finds.

  At grid point `t = (i, j)` the first input window holds rows `1024 i … 1024 i + 1023` of the embedding, the second
  rows `1024 j … 1024 j + 1023` of the same array, and the body leaves in the output window the decoder's tile of
  the two (the payload lemma). Entry `(r, s)` of that tile is therefore entry `(1024 i + r, 1024 j + s)` of the
  decoder of the whole embedding, which is where the pipeline writes it. The 64 tiles are written back at 64
  different block positions and cover the 8192 × 8192 array, so after the run the array IS the decoder of the
  embedding.
-/
import proofs.«400108_j31233002177120_3_alg».proof.Proof.KIFrame
import proofs.«400108_j31233002177120_3_alg».proof.Proof.KIPayload
import Idealize.ShloMosaic.Lib.Pipeline.Value

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 64 grid points: the first input window's row block is the output's
    row block, the second's is the output's column block, both take whole rows, and the output's block indices are
    below 8. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block position of the result is some grid point's. -/
theorem every_block : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The embedding as the region finds it, and the two input windows' blocks at a point, as arrays of extended reals. -/
abbrev zArr (c : Dev nD) : S8192x64.Idx → EReal := V m c main_v48
abbrev blkA (c : Dev nD) (t : Fin cfg0.N) : S1024x64.Idx → EReal := iblk m c 0 t
abbrev blkB (c : Dev nD) (t : Fin cfg0.N) : S1024x64.Idx → EReal := iblk m c 1 t

/-- An input block read at an entry is the embedding read at the entry's place in the array. -/
theorem blkA_apply (c : Dev nD) (t : Fin cfg0.N) (y : S1024x64.Idx) :
    blkA m c t y = zArr m c (((cfg0.win 0).blk t).view.emb y) := rfl
theorem blkB_apply (c : Dev nD) (t : Fin cfg0.N) (y : S1024x64.Idx) :
    blkB m c t y = zArr m c (((cfg0.win 1).blk t).view.emb y) := rfl

/-- One grid point, over ANY arrays: if `A` and `B` are the first and the second input window's blocks of an array
    `Z` at point `t`, the decoder's tile of `A` and `B`, cut to what the write-back moves, is the output window's block
    of the decoder of `Z` at `t`. Entry `(r, s)` of the tile pairs row `r` of `A`, which is row `1024 i + r` of `Z`,
    with row `s` of `B`, which is row `1024 j + s` of `Z`; and `(1024 i + r, 1024 j + s)` is where the output block puts it. -/
theorem tile_is_block (t : Fin cfg0.N) (A B : S1024x64.Idx → EReal) (Z : S8192x64.Idx → EReal)
    (hA : ∀ y, A y = Z (((cfg0.win 0).blk t).view.emb y)) (hB : ∀ y, B y = Z (((cfg0.win 1).blk t).view.emb y)) :
    (cfg0.win 2).cut (grid0.coords t) (GaeSpec.tile A B) = ((cfg0.win 2).blk t).view.read (Elt Ideal) (GaeSpec.decode Z) := by
  obtain ⟨e0, e1, e2, e3, e4, e5⟩ := index_maps t
  funext j
  show Ideal.logistic (∑ k : Fin 64, A (ix2 (j 0) k) * B (ix2 (j 1) k))
    = Ideal.logistic (∑ k : Fin 64, Z (ix2 ((((cfg0.win 2).blk t).view.emb j) 0) k) * Z (ix2 ((((cfg0.win 2).blk t).view.emb j) 1) k))
  refine congrArg Ideal.logistic (Finset.sum_congr rfl fun k _ => ?_)
  rw [hA, hB]
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 64 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 64 + 1 * k.val = k.val; omega
  rw [h0, h1]
  rfl

/-- WHAT POINT `t` WRITES BACK is block `t` of the decoder of the embedding as the region finds it. -/
theorem written_back (c : Dev nD) (t : Fin cfg0.N) :
    (dats m 0 c).flushed 2 t = ((cfg0.win 2).blk t).view.read (Elt Ideal) (GaeSpec.decode (zArr m c)) := by
  show (cfg0.win 2).cut (grid0.coords t) ((dats m 0 c).after 2 t) = _
  rw [after_out]
  unfold tileOut
  rw [View.canon_unit_zero zero_offsets]
  simp only [View.ld_unit_zero (S := S1024x64) zero_offsets]
  rw [pay_eq_tile]
  exact tile_is_block t (blkA m c t) (blkB m c t) (zArr m c) (blkA_apply m c t) (blkB_apply m c t)

/-- An entry of the result is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v49).slice (win0_2.rect t)).set ↔ _
  rw [View.set_slice_whole, Rect.mem_set_unit]
  exact Iff.rfl

/-- The tiles cover the result: entry `(p, q)` lies in the block at position `(p / 1024, q / 1024)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the decoder of the embedding the region found. -/
theorem result_array (c : Dev nD) : (dats m 0 c).arrAt 2 cfg0.N = GaeSpec.decode (zArr m c) :=
  (dats m 0 c).arrAt_eq_of_cover 2 (GaeSpec.decode (zArr m c)) (fun t _ => written_back m c t) tiles_cover

/-- The idealized kernel's run, read: the result at the decoder of the region-entry embedding, the arguments unchanged. -/
theorem run : θ_run defs (onTc (τ := τ) (main (F := Ideal))) ⟨m, fun _ => 0, ρ⟩ fun r => ∀ c : Dev nD,
      r.2.mem ((c.tc : Thread nD τ).loc main_v49) = GaeSpec.decode (zArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 2).trans (result_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.RefValue.lean ====
/-
  The reference's result is the decoder of its own node embedding.

  After computing the embedding `z` (stage 47 of its @main) the reference transposes it, multiplies `z` by the
  transpose (a sum over the 64 features of `z (p, k) * zᵀ (k, q)`), negates, exponentiates, adds one and divides one
  by the result. Reading the transpose back, entry `(p, q)` is `1 / (1 + exp (-(∑ k, z (p, k) * z (q, k))))`, which at
  the extended reals is by definition the logistic of that inner product: the decoder.
-/
import proofs.«400108_j31233002177120_3_alg».proof.Proof.RefReadP
import proofs.«400108_j31233002177120_3_alg».proof.Proof.Spec

noncomputable section

open scoped BigOperators

namespace Cert.ReferenceIdeal.RefValue

open Cert.ReferenceIdeal Cert.ReferenceIdeal.ReadP Idealize.ShloMosaic Idealize.ShloMosaic.ValueIdx

/-- The word `0x3F800000` is the real number one. -/
theorem one_word : Ideal.ofBits .f32 0x3F800000#32 = 1 := by
  simp [Ideal.ofBits, Ideal.ieee, -EReal.coe_mul]; norm_num

/-- Index by index, the reference's last stage is the decoder of its stage 47. -/
theorem ref_eq_decode (x0 : (⟨S128x8192, .f32⟩ : BufTy).Contents (Elt Ideal)) (x1 : (⟨S2x262144, .i32⟩ : BufTy).Contents (Elt Ideal))
    (x2 : (⟨S128x64, .f32⟩ : BufTy).Contents (Elt Ideal)) (x3 : (⟨S64, .f32⟩ : BufTy).Contents (Elt Ideal)) :
    val_main_v55 (F := Ideal) x0 x1 x2 x3 = GaeSpec.decode (val_main_v47 (F := Ideal) x0 x1 x2 x3) := by
  funext i
  rw [val_main_v55_apply, val_main_v54_apply, val_main_cst_10_apply, val_main_v53_apply, val_main_v52_apply, val_main_cst_9_apply,
    val_main_v51_apply, val_main_v50_apply, val_main_v49_apply]
  simp only [val_main_v48_apply]
  generalize val_main_v47 (F := Ideal) x0 x1 x2 x3 = z
  unfold GaeSpec.decode
  have e1 : ∀ k : Fin 64, lidx_main_v49 i k = ix2 (i 0) k := fun k => funext fun a => Fin.ext (by
    match a with
    | ⟨0, _⟩ => rfl
    | ⟨1, _⟩ => rfl)
  have e2 : ∀ k : Fin 64, idx_main_v48 (ridx_main_v49 i k) = ix2 (i 1) k := fun k => funext fun a => Fin.ext (by
    match a with
    | ⟨0, _⟩ => rfl
    | ⟨1, _⟩ => rfl)
  simp only [e1, e2, Ideal.ofBits_def, one_word]
  rfl

end Cert.ReferenceIdeal.RefValue

end
-- ==== Proof.HostChain.lean ====
/-
  The embedding the kernel's region finds is the reference's embedding, rounded.

  Before its one kernel launch the kernel's @main computes the node embedding by exactly the host operations the
  reference applies — self loops appended to the edge list, degrees by a scatter-add of ones, the symmetric
  normalisation `rsqrt (deg) [src] * rsqrt (deg) [dst]`, the feature transform `xᵀ W`, the gather of source rows, the
  scatter-add into target rows, the bias — in a slightly different order (the reference transposes `x` first), and
  then rounds the result to bf16. The host operations are pure functions of the argument arrays, so what the region
  finds in that buffer is the rounding of the reference's stage 47 at the same arguments: both sides are the same
  composition of the same operations, and the equation is closed by unfolding the two.
-/
import proofs.«400108_j31233002177120_3_alg».proof.Proof.KIFrame
import proofs.«400108_j31233002177120_3_alg».proof.Proof.RefReadP
import Idealize.ShloMosaic.Lib.StableHlo.Run

set_option maxRecDepth 16384

noncomputable section

namespace Cert.KernelIdeal.HostChain

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

set_option maxHeartbeats 4000000 in
/-- The rounded embedding in `main_v48` at the region's entry, as the reference's stage 47 of the launch arguments. -/
theorem entry_embedding (m : (ℓ : Loc nD τ sig) → Buf (Elt F) ℓ) (c : Dev nD) :
    (V m c main_v48 : S8192x64.Idx → Elt F .bf16)
      = truncf .bf16 (Cert.ReferenceIdeal.ReadP.val_main_v47 (F := F) (m ((c.tc : Thread nD τ).loc main_arg0))
          (m ((c.tc : Thread nD τ).loc main_arg1)) (m ((c.tc : Thread nD τ).loc main_arg2)) (m ((c.tc : Thread nD τ).loc main_arg3))) bitsLt_bf16_f32 := by
  dsimp only [V]
  simp only [hostOps0, hostOps0_1, hostOps0_2, List.flatten_cons, List.flatten_nil, List.append_nil, List.cons_append, List.nil_append]
  after_results_simp
  rfl

end Cert.KernelIdeal.HostChain

end
-- ==== Proof.lean ====
/-
  A graph autoencoder's dense decoder, `sigmoid (z zᵀ)` of a GCN node embedding `z`: the Pallas kernel against its
  jnp reference, over the extended reals.

  Both programs compute the embedding `z` (8192 nodes, 64 features) by the same host operations on the same four
  arguments. The reference then forms `z zᵀ` in one matrix product and applies `1 / (1 + exp (-·))`; the kernel rounds
  `z` to bf16 (at the extended reals a change of format is the identity) and computes the 8192 × 8192 result in 64
  tiles of 1024 × 1024, each the logistic of the product of one row block of `z` with the transpose of another.
  Entry `(p, q)` of either result is the logistic of the inner product of rows `p` and `q` of `z`: no law beyond
  re-indexing the contraction is needed, and the precondition is not used.

  The three frames: the two kernel programs' by the launch of a pipelined region whose two input windows read one
  array (each window holds it at half the share), the reference's by its run with the result dropped. The idealization
  rewrote no operation, so `preserves` is trivial.
-/
import proofs.«400108_j31233002177120_3_alg».proof.Defs
import proofs.«400108_j31233002177120_3_alg».proof.Proof.Gen.Kernel
import proofs.«400108_j31233002177120_3_alg».proof.Proof.Gen.KernelIdeal
import proofs.«400108_j31233002177120_3_alg».proof.Proof.Gen.ReferenceIdeal
import proofs.«400108_j31233002177120_3_alg».proof.Proof.Gen.Pre_finite_inputs
import proofs.«400108_j31233002177120_3_alg».proof.Proof.KFrame
import proofs.«400108_j31233002177120_3_alg».proof.Proof.KIFrame
import proofs.«400108_j31233002177120_3_alg».proof.Proof.KIValue
import proofs.«400108_j31233002177120_3_alg».proof.Proof.RefValue
import proofs.«400108_j31233002177120_3_alg».proof.Proof.HostChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The embedding the kernel's region finds, at the extended reals, is the reference's stage 47 of the launch
    arguments: rounding to bf16 changes nothing there. -/
theorem kernel_embedding (m : (ℓ : Loc Cert.KernelIdeal.nD Cert.KernelIdeal.τ Cert.KernelIdeal.sig) → Buf (Elt Ideal) ℓ) (c : Dev Cert.KernelIdeal.nD) :
    Cert.KernelIdeal.Val.zArr m c
      = Cert.ReferenceIdeal.ReadP.val_main_v47 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.HostChain.entry_embedding (F := Ideal) m c).trans rfl

/-- Both idealized programs end with the decoder of the same embedding. -/
theorem algebraic : Cert.algebraic_KernelIdeal_ReferenceIdeal := by
  intro m ρ m' ρ' _ hagree
  refine ⟨fun c => GaeSpec.decode (Cert.KernelIdeal.Val.zArr m c), Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v55_eq, Cert.ReferenceIdeal.RefValue.ref_eq_decode]
  show _ = GaeSpec.decode (Cert.KernelIdeal.Val.zArr m c)
  rw [kernel_embedding, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
